-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x204 : S_.BroadcastsInDim S4096x204 (![] : Fin 0 → Fin S4096x204.rank)
  reducesTo_S4096x204_S_d0_1 : S4096x204.ReducesTo [0, 1] S_

variable [Facts]

def fn_part1 {F : FTy → Type} [FloatOps F] (main_v13 : IVec S_ 1) (main_v16 : IVec S4096x204 1) : IVec S_ 1 :=
  let main_c_5 : IVec S_ 1 := constantI S_ 1 1#1
  let main_v17 : IVec S_ 1 := (fun x v => Host.reduce IntOp.andi x v reducesTo_S4096x204_S_d0_1 h_S_) main_v16 main_c_5
  let main_v18 : IVec S_ 1 := andi main_v13 main_v17
  main_v18

def fn {F : FTy → Type} [FloatOps F] (main_arg0 : FVec F S4x2048x4096 .f32) (main_arg1 : FVec F S4096x4096 .f32) (main_arg2 : FVec F S4096 .f32) (main_arg3 : FVec F S4096x204 .f32) (main_arg4 : IVec S204 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x204 .f32 := Host.absf main_arg3
  let main_cst_4 : FVec F S_ .f32 := constant S_ .f32 0x7F800000#32
  let main_v15 : FVec F S4096x204 .f32 := broadcastInDim S4096x204 ![] bcast_S_S4096x204 main_cst_4
  let main_v16 : IVec S4096x204 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 38
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S8192x4096, .f32⟩
  | .hbm, ⟨33, _⟩ => ⟨S8192x4096, .bf16⟩
  | .hbm, ⟨34, _⟩ => ⟨S4096x4096, .bf16⟩
  | .hbm, ⟨35, _⟩ => ⟨S1x4096, .f32⟩
  | .hbm, ⟨36, _⟩ => ⟨S8192x4096, .f32⟩
  | .hbm, ⟨37, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  scatter_S4096x4096_S204x1_S4096x204_0_1_1_1_wf : ScatterDims.WF S4096x4096 S204x1 S4096x204 [0] [1] [1] 1
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v22) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x204 : Shape := ⟨2, ![4096, 204]⟩
abbrev S204 : Shape := ⟨1, ![204]⟩
abbrev S_ : Shape := ⟨0, ![]⟩
abbrev S4096x1 : Shape := ⟨2, ![4096, 1]⟩
abbrev S204x1 : Shape := ⟨2, ![204, 1]⟩
abbrev S1x1x4096 : Shape := ⟨3, ![1, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096, .f32⟩
  | .hbm, ⟨3, _⟩ => ⟨S4096x204, .f32⟩
  | .hbm, ⟨4, _⟩ => ⟨S204, .i32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .i32⟩
  | .hbm, ⟨24, _⟩ => ⟨S204, .i32⟩
  | .hbm, ⟨25, _⟩ => ⟨S204, .i1⟩
  | .hbm, ⟨26, _⟩ => ⟨S_, .i32⟩
  | .hbm, ⟨27, _⟩ => ⟨S204, .i32⟩
  | .hbm, ⟨28, _⟩ => ⟨S204, .i32⟩
  | .hbm, ⟨29, _⟩ => ⟨S204, .i32⟩
  | .hbm, ⟨30, _⟩ => ⟨S204x1, .i32⟩
  | .hbm, ⟨31, _⟩ => ⟨S4096x4096, .f32⟩
  | .hbm, ⟨32, _⟩ => ⟨S4x2048x4096, .f32⟩
  | .hbm, ⟨33, _⟩ => ⟨S1x1x4096, .f32⟩
  | .hbm, ⟨34, _⟩ => ⟨S4x2048x4096, .f32⟩
  | .hbm, ⟨35, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S204 : S_.BroadcastsInDim S204 (![] : Fin 0 → Fin S204.rank)
  bcast_S204_S204x1_0 : S204.BroadcastsInDim S204x1 (![0] : Fin 1 → Fin S204x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  scatter_S4096x4096_S204x1_S4096x204_0_1_1_1_wf : ScatterDims.WF S4096x4096 S204x1 S4096x204 [0] [1] [1] 1
  dot_S4x2048x4096_S4096x4096_S4x2048x4096_2_1_01_0_n_n_wf : DotDims.WF S4x2048x4096 S4096x4096 S4x2048x4096 [2] [1] [0, 1] [0] [] []

variable [Facts₀]

def scatter_S4096x4096_S204x1_S4096x204_0_1_1_1 : ScatterDims S4096x4096 S204x1 S4096x204 where
  updateWindowDims := [0]
  insertedWindowDims := [1]
  scatterDimsToOperandDims := [1]
  indexVectorDim := 1
  wf := scatter_S4096x4096_S204x1_S4096x204_0_1_1_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelPieces.lean ====
/-
  What one run of the kernel body leaves behind, as values.

  The body keeps a [1024, 1024] accumulator across the grid's innermost axis. Writing step(acc, a, b) for
  acc + a·bᵀ (the product contracting the second axis of both [1024, 1024] blocks), and zero for the all-zero block:

    * at the first block of the contracted axis the accumulator is reset and then updated: it ends at step(zero, a, b);
    * at every later block it ends at step(acc, a, b) of what the point before left in it;
    * at the last block the output block is, besides, written with the updated accumulator plus the bias row
      repeated down the rows.

  Each statement reads the stores of one control case back through the covering rectangle [0, 1024) × [0, 1024);
  a load that follows a store in the same run reads what that store wrote.
-/
import proofs.«170025_j83588653515071_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First block of the contracted axis: the accumulator is zeroed, read back, and left at zero + a·bᵀ. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- A middle block: the accumulator goes from acc to acc + a·bᵀ. -/
theorem scratch_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread,
    View.ld_unit_zero (S := S1024x1024) hz]

/-- The last block: the accumulator goes from acc to acc + a·bᵀ as well. -/
theorem scratch_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S1024x1024) hz]

/-- The last block's output: the updated accumulator plus the bias row repeated down the rows. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz,
    View.readCov_unit_zero (S := S1024x1024) _ hz]

end Cert.KernelIdeal.Pieces

end
-- ==== Proof.KernelRecurrence.lean ====
/-
  The accumulator from one grid point to the next.

  The grid is 8 × 4 × 4 with the contracted axis innermost, so point t works on block t mod 4 of the contracted axis.
  Writing a_t, b_t, v_t for the blocks of the three inputs at point t, acc_t for what the point leaves in the carried
  accumulator, step(acc, a, b) = acc + a·bᵀ and zero for the all-zero block:

    * t ≡ 0 (mod 4):  acc_t = step(zero, a_t, b_t);
    * otherwise:       acc_t = step(acc_{t-1}, a_t, b_t);
    * t ≡ 3 (mod 4):  the output block written back at t is step(acc_{t-1}, a_t, b_t) plus the row v_t repeated down
                       the rows.

  Each is the control case the point is in, read through the case's values.
-/
import proofs.«170025_j83588653515071_1_alg».proof.Proof.KernelPieces

noncomputable section

namespace Cert.KernelIdeal.Recurrence

open Idealize.ShloMosaic Idealize.ShloMosaic.TcCoe Idealize.SL.Sem
open Cert.KernelIdeal Cert.KernelIdeal.Gen Cert.KernelIdeal.Pieces

variable {F : FTy → Type} [FloatOps F]
variable (m : (ℓ : Loc nD τ sig) → Buf (Elt F) ℓ)

/-- The point before `t` is a point of the grid. -/
theorem pred_lt (t : Fin cfg0.N) : t.val - 1 < cfg0.N := Nat.lt_of_le_of_lt (Nat.sub_le _ _) t.isLt

/-- At the first block of the contracted axis the accumulator restarts from zero. -/
theorem acc_first (c : Dev nD) (t : Fin cfg0.N) (h0 : t.val % 4 = 0) :
    (outsAt0 m c t.val t.isLt).2 = k0_pay2 (k0_pay1 (F := F)) (iblk m c 0 t) (iblk m c 1 t) := by
  have h1 : ¬t.val % 4 = 3 := by omega
  rw [outsAt0_A m c t h0 h1]
  dsimp only
  exact scratch_first (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (iblk m c 0 t) (iblk m c 1 t) (iblk m c 2 t)

/-- At every other block it goes on from what the point before left. -/
theorem acc_next (c : Dev nD) (t : Fin cfg0.N) (h0 : ¬t.val % 4 = 0) :
    (outsAt0 m c t.val t.isLt).2
      = k0_pay2 (outsAt0 m c (t.val - 1) (pred_lt t)).2 (iblk m c 0 t) (iblk m c 1 t) := by
  by_cases h1 : t.val % 4 = 3
  · rw [outsAt0_C m c t h0 h1]
    dsimp only
    exact scratch_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (iblk m c 0 t) (iblk m c 1 t) (iblk m c 2 t) (outsAt0 m c (t.val - 1) (pred_lt t)).2
  · rw [outsAt0_B m c t h0 h1]
    dsimp only
    exact scratch_middle (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (iblk m c 0 t) (iblk m c 1 t) (iblk m c 2 t) (outsAt0 m c (t.val - 1) (pred_lt t)).2

/-- At the last block the output block is the updated accumulator plus the bias row. -/
theorem out_at_last (c : Dev nD) (t : Fin cfg0.N) (h1 : t.val % 4 = 3) :
    (outsAt0 m c t.val t.isLt).1
      = k0_pay3 (k0_pay2 (outsAt0 m c (t.val - 1) (pred_lt t)).2 (iblk m c 0 t) (iblk m c 1 t)) (iblk m c 2 t) := by
  have h0 : ¬t.val % 4 = 0 := by omega
  rw [outsAt0_C m c t h0 h1]
  dsimp only
  exact out_last (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) (pred_lt t)).2

end Cert.KernelIdeal.Recurrence

end
-- ==== Proof.LibBlockSums.lean ====
/-
  Sums over a line of entries cut into equal blocks.

  A kernel that accumulates over a grid axis walks a line of entries block by block: at block t it adds up the B entries
  B·t, …, B·t + B − 1, and it carries the total across the T blocks. Over a commutative monoid the order and the grouping of a finite sum do not
  matter, so the T block sums together are the one sum over the first T·B entries. When the line of entries was padded
  past its first N entries with entries that contribute zero, the padding drops out of the sum.
-/
import Mathlib.Algebra.BigOperators.Group.Finset.Basic
import Mathlib.Algebra.BigOperators.Fin
import Mathlib.Data.Fintype.BigOperators

namespace Idealize.ShloMosaic.BlockSums

open Finset

variable {M : Type*} [AddCommMonoid M]

/-- T consecutive blocks of B entries each, summed block by block, are the first T·B entries summed in a row. -/
theorem sum_blocks (f : ℕ → M) (B : ℕ) : ∀ T : ℕ,
    ∑ t ∈ range T, ∑ j : Fin B, f (B * t + j.val) = ∑ n ∈ range (T * B), f n
  | 0 => by simp
  | T + 1 => by
    rw [sum_range_succ, sum_blocks f B T, Nat.succ_mul, sum_range_add,
      Fin.sum_univ_eq_sum_range (fun j => f (B * T + j)) B, Nat.mul_comm B T]

/-- Entries from N on that are all zero do not count. -/
theorem sum_range_pad (f : ℕ → M) (N P : ℕ) (h : ∀ n, N ≤ n → f n = 0) :
    ∑ n ∈ range (N + P), f n = ∑ n ∈ range N, f n := by
  rw [sum_range_add, sum_eq_zero (fun x _ => h _ (Nat.le_add_right _ _)), add_zero]

/-- Both together: T blocks of B entries covering N entries and P entries of padding that contribute zero sum to the
    N entries' sum, written over `Fin N`. -/
theorem sum_blocks_pad (f : ℕ → M) (B T N P : ℕ) (hTB : T * B = N + P) (h : ∀ n, N ≤ n → f n = 0) :
    ∑ t ∈ range T, ∑ j : Fin B, f (B * t + j.val) = ∑ n : Fin N, f n.val := by
  rw [sum_blocks f B T, hTB, sum_range_pad f N P h, Fin.sum_univ_eq_sum_range]

end Idealize.ShloMosaic.BlockSums
-- ==== Proof.Spec.lean ====
/-
  The layer both programs compute, as one function of the arrays, and the law that joins the two ways of summing it.

  With x of shape [4, 2048, 4096], a weight matrix W of shape [4096, 4096] (rows indexed by the output feature) and a
  bias of 4096 entries, the layer is

      out(b, s, o) = Σ_{i < 4096} x(b, s, i) · W(o, i)  +  bias(o).

  One program forms the 4096-term sum at once. The other walks the contracted axis in 4 blocks of 1024 entries,
  starting from zero and adding one block's partial sum after the other:

      ((((0 + S₀) + S₁) + S₂) + S₃),    S_t = Σ_{l < 1024} g(1024·t + l).

  The extended reals under addition are a commutative monoid, so the grouping does not matter and the two agree on
  every input (no finiteness is needed: only associativity of + and 0 + a = a are used).

  A matrix is read below at a pair of natural numbers (`at2`), zero off the matrix, so that a statement about the
  entry in row 1024·i + p needs no proof of a bound inside it.
-/
import Idealize.ShloMosaic.PureOps.Ideal.Laws
import Idealize.ShloMosaic.Lib.ValueIdx
import proofs.«170025_j83588653515071_1_alg».proof.Proof.LibBlockSums

noncomputable section

namespace Cert.QLinear

open Idealize.ShloMosaic Idealize.ShloMosaic.ValueIdx Finset

/-! ## A matrix read at a pair of naturals -/

/-- Entry (r, c) of an R×C matrix, zero when (r, c) is off the matrix. -/
def at2 {R C : ℕ} (A : (⟨2, ![R, C]⟩ : Shape).Idx → EReal) (r c : ℕ) : EReal :=
  if h : r < R ∧ c < C then A (ix2 ⟨r, h.1⟩ ⟨c, h.2⟩) else 0

/-- On the matrix it is the entry. -/
theorem at2_ix2 {R C : ℕ} (A : (⟨2, ![R, C]⟩ : Shape).Idx → EReal) (r : Fin R) (c : Fin C) :
    at2 A r.val c.val = A (ix2 r c) := by
  unfold at2
  rw [dif_pos ⟨r.isLt, c.isLt⟩]

/-- An index whose coordinates are (r, c) reads that entry. -/
theorem eq_at2 {R C : ℕ} (A : (⟨2, ![R, C]⟩ : Shape).Idx → EReal) (i : (⟨2, ![R, C]⟩ : Shape).Idx) (r c : ℕ)
    (hr : (i 0).val = r) (hc : (i 1).val = c) : A i = at2 A r c := by
  subst hr hc
  rw [eq_ix2 i]
  exact (at2_ix2 A (i 0) (i 1)).symm

/-! ## The layer -/

/-- The dense layer: row (b, s) of x against row o of W, plus bias(o). -/
def layer (x : (⟨3, ![4, 2048, 4096]⟩ : Shape).Idx → EReal) (W : (⟨2, ![4096, 4096]⟩ : Shape).Idx → EReal)
    (bias : (⟨1, ![4096]⟩ : Shape).Idx → EReal) : (⟨3, ![4, 2048, 4096]⟩ : Shape).Idx → EReal :=
  fun i => (∑ l : Fin 4096, x (ix3 (i 0) (i 1) l) * W (ix2 (i 2) l)) + bias (ix1 (i 2))

/-! ## Summing the contracted axis block by block -/

/-- The partial sum of block t: the 1024 products at positions 1024·t, …, 1024·t + 1023 of row r of A against row n
    of B. -/
def blockTerm (A : (⟨2, ![8192, 4096]⟩ : Shape).Idx → EReal) (B : (⟨2, ![4096, 4096]⟩ : Shape).Idx → EReal)
    (r n t : ℕ) : EReal :=
  ∑ l : Fin 1024, at2 A r (1024 * t + l.val) * at2 B n (1024 * t + l.val)

/-- What the accumulator holds after the blocks 0, …, k have been added to zero one after the other. -/
def accUpTo (A : (⟨2, ![8192, 4096]⟩ : Shape).Idx → EReal) (B : (⟨2, ![4096, 4096]⟩ : Shape).Idx → EReal)
    (r n k : ℕ) : EReal :=
  0 + ∑ t ∈ range (k + 1), blockTerm A B r n t

/-- Starting the accumulation: zero plus block 0. -/
theorem accUpTo_zero (A : (⟨2, ![8192, 4096]⟩ : Shape).Idx → EReal) (B : (⟨2, ![4096, 4096]⟩ : Shape).Idx → EReal)
    (r n : ℕ) : accUpTo A B r n 0 = 0 + blockTerm A B r n 0 := by
  unfold accUpTo
  rw [sum_range_one]

/-- One more block: what was there plus block k + 1. -/
theorem accUpTo_succ (A : (⟨2, ![8192, 4096]⟩ : Shape).Idx → EReal) (B : (⟨2, ![4096, 4096]⟩ : Shape).Idx → EReal)
    (r n k : ℕ) : accUpTo A B r n (k + 1) = accUpTo A B r n k + blockTerm A B r n (k + 1) := by
  unfold accUpTo
  rw [sum_range_succ _ (k + 1), add_assoc]

/-- After all 4 blocks the accumulator holds the whole 4096-term sum of row r of A against row n of B. -/
theorem accUpTo_three (A : (⟨2, ![8192, 4096]⟩ : Shape).Idx → EReal) (B : (⟨2, ![4096, 4096]⟩ : Shape).Idx → EReal)
    (r : Fin 8192) (n : Fin 4096) :
    accUpTo A B r.val n.val 3 = ∑ l : Fin 4096, A (ix2 r l) * B (ix2 n l) := by
  unfold accUpTo blockTerm
  rw [zero_add, Idealize.ShloMosaic.BlockSums.sum_blocks (fun p => at2 A r.val p * at2 B n.val p) 1024 4,
    ← Fin.sum_univ_eq_sum_range (fun p => at2 A r.val p * at2 B n.val p) (4 * 1024)]
  exact Finset.sum_congr rfl fun l _ => by rw [at2_ix2, at2_ix2]

end Cert.QLinear

end
-- ==== Proof.LibMatmulRowsByRows.lean ====
/-
  The product of an m×k matrix A with the TRANSPOSE of an n×k matrix B, read at an index at the ideal values.

  Contracting the second axis of both operands gives at (r, h) the entry Σ_l A(r, l)·B(h, l): row r of A against row h
  of B. At the ideal values no rounding and no order of summation is left, so a kernel's product into a zero
  accumulator reads exactly that sum. The four coordinate lemmas say where each operand is read: the contracted axis of
  either operand takes the contraction's one coordinate, the kept axis of the left operand the result's first
  coordinate and the kept axis of the right operand the result's second coordinate.
-/
import Idealize.ShloMosaic.PureOps.Ideal.Laws
import Idealize.ShloMosaic.Lib.ValueIdx

noncomputable section

namespace Idealize.ShloMosaic.MatmulRowsByRows

open Idealize.ShloMosaic Idealize.ShloMosaic.ValueIdx

variable {m k n : ℕ}

/-- The dimension numbers `[1] × [1]`, kept axes `[0]` and `[0]`, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- The left operand's kept axis reads the result's first coordinate. -/
theorem lhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 0).val = (j 0).val := by
  unfold DotDims.lhsIdx
  rw [dif_neg (show ¬(0 : Fin 2) ∈ (dims w).lhsBatch from List.not_mem_nil),
    dif_pos (show (0 : Fin 2) ∈ (dims w).lhsNonContracting from List.mem_singleton.mpr rfl)]
  rfl

/-- The left operand's contracted axis reads the contraction's coordinate. -/
theorem lhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).lhsIdx j q 1).val = (q ⟨0, Nat.one_pos⟩).val :=
  (dims w).lhsIdx_val_of_single rfl j q

/-- The right operand's kept axis reads the result's second coordinate. -/
theorem rhs_0 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 0).val = (j 1).val := by
  unfold DotDims.rhsIdx
  rw [dif_neg (show ¬(0 : Fin 2) ∈ (dims w).rhsBatch from List.not_mem_nil),
    dif_pos (show (0 : Fin 2) ∈ (dims w).rhsNonContracting from List.mem_singleton.mpr rfl)]
  rfl

/-- The right operand's contracted axis reads the contraction's coordinate. -/
theorem rhs_1 (w : DotDims.WF ⟨2, ![m, k]⟩ ⟨2, ![n, k]⟩ ⟨2, ![m, n]⟩ [1] [1] [0] [0] [] [])
    (j : (⟨2, ![m, n]⟩ : Shape).Idx) (q : (dims w).contr.Idx) :
    ((dims w).rhsIdx j q 1).val = (q ⟨0, Nat.one_pos⟩).val :=
  (dims w).rhsIdx_val_of_single rfl j q

/-- The contraction's sum, re-indexed by the contracted coordinate: the left operand is read along its row `r`, the
    right one along its row `h`. -/
theorem sum_contr (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (r : Fin m) (h : Fin n) :
    ∑ q : (dims w).contr.Idx, A ((dims w).lhsIdx (ix2 r h) q) * B ((dims w).rhsIdx (ix2 r h) q)
      = ∑ l : Fin k, A (ix2 r l) * B (ix2 h l) := by
  rw [← Equiv.sum_comp (contrEquiv1 (dims w) k rfl rfl).symm]
  refine Finset.sum_congr rfl fun l _ => ?_
  have c2 := contrEquiv1_symm_val (dims w) k rfl rfl l
  have l2 : (dims w).lhsIdx (ix2 r h) ((contrEquiv1 (dims w) k rfl rfl).symm l) = ix2 r l := by
    funext ax; apply Fin.ext
    match ax with
    | ⟨0, _⟩ => exact lhs_0 w _ _
    | ⟨1, _⟩ => exact (lhs_1 w _ _).trans c2
  have r2 : (dims w).rhsIdx (ix2 r h) ((contrEquiv1 (dims w) k rfl rfl).symm l) = ix2 h l := by
    funext ax; apply Fin.ext
    match ax with
    | ⟨0, _⟩ => exact rhs_0 w _ _
    | ⟨1, _⟩ => exact (rhs_1 w _ _).trans c2
  rw [l2, r2]

/-- A kernel's product of an m×k matrix with the transpose of an n×k matrix into the zero accumulator, read at
    `(r, h)`. -/
theorem matmul_rowsByRows_apply {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (r : Fin m) (h : Fin n) :
    FloatOps.matmul (⟨[1], [1], [0], [0], [], [], w⟩ : DotDims _ _ _) prec A B
        (constant ⟨2, ![m, n]⟩ .f32 0x00000000#32) (ix2 r h)
      = ∑ l : Fin k, A (ix2 r l) * B (ix2 h l) := by
  rw [Ideal.matmul_constant_zero_apply]
  exact sum_contr w A B r h

end Idealize.ShloMosaic.MatmulRowsByRows

end
-- ==== Proof.KernelBlocks.lean ====
/-
  The kernel's blocks and payloads read at an index, at the ideal values.

  The pipeline stages three arrays: X, the [8192, 4096] matrix of x's rows; Wb, the [4096, 4096] weight matrix; and the
  bias as one row [1, 4096]. With t = 16·i + 4·j + k the grid point (i, j, k):

    * the block of X at t is rows 1024·i … and columns 1024·k … of X;
    * the block of Wb at t is rows 1024·j … and columns 1024·k … of Wb;
    * the block of the bias row at t is columns 1024·j … of it.

  At the ideal values step(acc, a, b) at (p, q) is acc(p, q) + Σ_l a(p, l)·b(q, l), the zero block is 0 everywhere, and
  adding the bias row adds its entry q at (p, q).

  Before the kernel runs, X is x with its two leading axes merged (a change of float format is the identity at the
  ideal values), the bias row is the bias with a unit axis in front, and Wb is the matrix the host operations build
  from the weight, the outlier weights and the outlier column indices (`hostW`, left as it is).
-/
import proofs.«170025_j83588653515071_1_alg».proof.Proof.KernelRecurrence
import proofs.«170025_j83588653515071_1_alg».proof.Proof.Spec
import proofs.«170025_j83588653515071_1_alg».proof.Proof.LibMatmulRowsByRows
import Idealize.ShloMosaic.Lib.ValueLayout
import Idealize.ShloMosaic.Lib.Pipeline.Value
import Idealize.ShloMosaic.Lib.StableHlo.Run

noncomputable section

namespace Cert.KernelIdeal.Blocks

open Idealize.ShloMosaic Idealize.ShloMosaic.TcCoe Idealize.SL.Sem Idealize.ShloMosaic.ValueIdx Idealize.ShloMosaic.StableHlo
open Cert.KernelIdeal Cert.KernelIdeal.Gen Cert.QLinear

/-! ## The weight matrix the host operations build -/

/-- Each row of the weight centred at its mean, the signs of the centred entries scaled by the row's mean absolute
    value, and the outlier columns put in place of the columns the (wrapped) indices name. -/
def hostW {F : FTy → Type} [FloatOps F] (x1 : (⟨S4096x4096, .f32⟩ : BufTy).Contents (Elt F))
    (x3 : (⟨S4096x204, .f32⟩ : BufTy).Contents (Elt F)) (x4 : (⟨S204, .i32⟩ : BufTy).Contents (Elt F)) :
    (⟨S4096x4096, .f32⟩ : BufTy).Contents (Elt F) :=
  Host.scatter scatter_S4096x4096_S204x1_S4096x204_0_1_1_1 (fun _ b => b) (mulf (Host.sign (subf (x1) (broadcastInDim S4096x4096 ![0, 1] bcast_S4096x1_S4096x4096_0_1 (Host.divf (broadcastInDim S4096x1 ![0] bcast_S4096_S4096x1_0 (Host.reduceAdd (x1) (constant S_ .f32 0x00000000#32) reducesTo_S4096x4096_S4096_d1 h_S_)) (broadcastInDim S4096x1 ![] bcast_S_S4096x1 (constant S_ .f32 0x45800000#32)))))) (broadcastInDim S4096x4096 ![0, 1] bcast_S4096x1_S4096x4096_0_1 (Host.divf (broadcastInDim S4096x1 ![0] bcast_S4096_S4096x1_0 (Host.reduceAdd (Host.absf (subf (x1) (broadcastInDim S4096x4096 ![0, 1] bcast_S4096x1_S4096x4096_0_1 (Host.divf (broadcastInDim S4096x1 ![0] bcast_S4096_S4096x1_0 (Host.reduceAdd (x1) (constant S_ .f32 0x00000000#32) reducesTo_S4096x4096_S4096_d1 h_S_)) (broadcastInDim S4096x1 ![] bcast_S_S4096x1 (constant S_ .f32 0x45800000#32)))))) (constant S_ .f32 0x00000000#32) reducesTo_S4096x4096_S4096_d1 h_S_)) (broadcastInDim S4096x1 ![] bcast_S_S4096x1 (constant S_ .f32 0x45800000#32))))) (broadcastInDim S204x1 ![0] bcast_S204_S204x1_0 (select (cmpi .slt (x4) (broadcastInDim S204 ![] bcast_S_S204 (constantI S_ 32 0#32))) (addi (x4) (broadcastInDim S204 ![] bcast_S_S204 (constantI S_ 32 4096#32))) (x4))) (x3)

/-- The defining equation, for the one place that compares this matrix with another program's. -/
theorem hostW_def {F : FTy → Type} [FloatOps F] (x1 : (⟨S4096x4096, .f32⟩ : BufTy).Contents (Elt F))
    (x3 : (⟨S4096x204, .f32⟩ : BufTy).Contents (Elt F)) (x4 : (⟨S204, .i32⟩ : BufTy).Contents (Elt F)) :
    hostW x1 x3 x4 = Host.scatter scatter_S4096x4096_S204x1_S4096x204_0_1_1_1 (fun _ b => b) (mulf (Host.sign (subf (x1) (broadcastInDim S4096x4096 ![0, 1] bcast_S4096x1_S4096x4096_0_1 (Host.divf (broadcastInDim S4096x1 ![0] bcast_S4096_S4096x1_0 (Host.reduceAdd (x1) (constant S_ .f32 0x00000000#32) reducesTo_S4096x4096_S4096_d1 h_S_)) (broadcastInDim S4096x1 ![] bcast_S_S4096x1 (constant S_ .f32 0x45800000#32)))))) (broadcastInDim S4096x4096 ![0, 1] bcast_S4096x1_S4096x4096_0_1 (Host.divf (broadcastInDim S4096x1 ![0] bcast_S4096_S4096x1_0 (Host.reduceAdd (Host.absf (subf (x1) (broadcastInDim S4096x4096 ![0, 1] bcast_S4096x1_S4096x4096_0_1 (Host.divf (broadcastInDim S4096x1 ![0] bcast_S4096_S4096x1_0 (Host.reduceAdd (x1) (constant S_ .f32 0x00000000#32) reducesTo_S4096x4096_S4096_d1 h_S_)) (broadcastInDim S4096x1 ![] bcast_S_S4096x1 (constant S_ .f32 0x45800000#32)))))) (constant S_ .f32 0x00000000#32) reducesTo_S4096x4096_S4096_d1 h_S_)) (broadcastInDim S4096x1 ![] bcast_S_S4096x1 (constant S_ .f32 0x45800000#32))))) (broadcastInDim S204x1 ![0] bcast_S204_S204x1_0 (select (cmpi .slt (x4) (broadcastInDim S204 ![] bcast_S_S204 (constantI S_ 32 0#32))) (addi (x4) (broadcastInDim S204 ![] bcast_S_S204 (constantI S_ 32 4096#32))) (x4))) (x3) := rfl

/-! ## The payloads at an index -/

/-- The zero block is 0 everywhere. -/
theorem zero_apply (j : S1024x1024.Idx) : k0_pay1 (F := Ideal) j = 0 := by
  unfold k0_pay1
  simp only [shapeCast_self]
  exact Ideal.ofBits_zero_f32

/-- One step of the accumulation at (p, q): row p of a against row q of b is added. -/
theorem step_apply (acc : Vec Ideal S1024x1024 .f32) (a b : Vec Ideal S1024x1024 .bf16) (p q : Fin 1024) :
    k0_pay2 acc a b (ix2 p q) = acc (ix2 p q) + ∑ l : Fin 1024, a (ix2 p l) * b (ix2 q l) := by
  unfold k0_pay2
  simp only [shapeCast_self]
  exact congrArg (acc (ix2 p q) + ·) (MatmulRowsByRows.matmul_rowsByRows_apply _ none a b p q)

/-- Adding the bias row at (p, q) adds its entry q. -/
theorem bias_apply (y : Vec Ideal S1024x1024 .f32) (v : Vec Ideal S1x1024 .f32) (p q : Fin 1024) :
    k0_pay3 y v (ix2 p q) = y (ix2 p q) + v (ix2 (0 : Fin 1) q) := by
  unfold k0_pay3
  simp only [shapeCast_self]
  exact congrArg (y (ix2 p q) + ·) (broadcastTo_1b_ab_apply v _ p q)

/-! ## The arrays as the kernel finds them, and their blocks -/

/-- The printed index maps over the grid: point t = 16·i + 4·j + k takes row block i and column block k of X, row
    block j and column block k of Wb, column block j of the bias row, and row block i and column block j of the
    output. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = t.val / 16 ∧ win0_3.index t (1 : Fin 2) = t.val / 4 % 4 :=
  (by decide +kernel : ∀ t : Fin grid0.N, _)

/-- Window 0's block at point t of ANY [8192, 4096] array, at (p, l). -/
theorem blk0_read (A : (⟨2, ![8192, 4096]⟩ : Shape).Idx → EReal) (t : Fin cfg0.N) (p l : Fin 1024) :
    ((cfg0.win 0).blk t).view.read (Elt Ideal) A (ix2 p l)
      = at2 A (1024 * (t.val / 16) + p.val) (1024 * (t.val % 4) + l.val) := by
  obtain ⟨e0, e1, -⟩ := idx_facts t
  rw [View.read_apply]
  show A _ = _
  refine eq_at2 A _ _ _ ?_ ?_
  · show win0_0.index t (0 : Fin 2) * 1024 + 1 * p.val = _
    rw [e0]; omega
  · show win0_0.index t (1 : Fin 2) * 1024 + 1 * l.val = _
    rw [e1]; omega

/-- Window 1's block at point t of ANY [4096, 4096] array, at (q, l). -/
theorem blk1_read (B : (⟨2, ![4096, 4096]⟩ : Shape).Idx → EReal) (t : Fin cfg0.N) (q l : Fin 1024) :
    ((cfg0.win 1).blk t).view.read (Elt Ideal) B (ix2 q l)
      = at2 B (1024 * (t.val / 4 % 4) + q.val) (1024 * (t.val % 4) + l.val) := by
  obtain ⟨-, -, e0, e1, -⟩ := idx_facts t
  rw [View.read_apply]
  show B _ = _
  refine eq_at2 B _ _ _ ?_ ?_
  · show win0_1.index t (0 : Fin 2) * 1024 + 1 * q.val = _
    rw [e0]; omega
  · show win0_1.index t (1 : Fin 2) * 1024 + 1 * l.val = _
    rw [e1]; omega

/-- Window 2's block at point t of ANY [1, 4096] array, at (0, q). -/
theorem blk2_read (b : (⟨2, ![1, 4096]⟩ : Shape).Idx → EReal) (t : Fin cfg0.N) (q : Fin 1024) :
    ((cfg0.win 2).blk t).view.read (Elt Ideal) b (ix2 (0 : Fin 1) q)
      = at2 b 0 (1024 * (t.val / 4 % 4) + q.val) := by
  obtain ⟨-, -, -, -, e0, e1, -⟩ := idx_facts t
  rw [View.read_apply]
  show b _ = _
  refine eq_at2 b _ _ _ ?_ ?_
  · show win0_2.index t (0 : Fin 2) * 1 + 1 * 0 = _
    rw [e0]
  · show win0_2.index t (1 : Fin 2) * 1024 + 1 * q.val = _
    rw [e1]; omega

/-- Window 3's block at point t of ANY [8192, 4096] array, at a block index y: the array at the index whose
    coordinates are 1024·(row block) + y₀ and 1024·(column block) + y₁. -/
theorem blk3_read (G : (⟨2, ![8192, 4096]⟩ : Shape).Idx → EReal) (t : Fin cfg0.N) (y : S1024x1024.Idx) :
    ∃ i : (⟨2, ![8192, 4096]⟩ : Shape).Idx, ((cfg0.win 3).blk t).view.read (Elt Ideal) G y = G i
      ∧ (i 0).val = 1024 * (t.val / 16) + (y 0).val ∧ (i 1).val = 1024 * (t.val / 4 % 4) + (y 1).val := by
  obtain ⟨-, -, -, -, -, -, e0, e1⟩ := idx_facts t
  refine ⟨((cfg0.win 3).blk t).view.emb y, ?_, ?_, ?_⟩
  · rw [View.read_apply]
    rfl
  · show win0_3.index t (0 : Fin 2) * 1024 + 1 * (y 0).val = _
    rw [e0]; omega
  · show win0_3.index t (1 : Fin 2) * 1024 + 1 * (y 1).val = _
    rw [e1]; omega

variable (m : (ℓ : Loc nD τ sig) → Buf (Elt Ideal) ℓ)

/-- X, Wb and the bias row, as the host operations before the kernel leave them. (They are only ever passed whole:
    what they hold is said once, at the end, by `xarr_eq`, `warr_eq`, `barr_eq`.) -/
abbrev xarr (c : Dev nD) : (⟨2, ![8192, 4096]⟩ : Shape).Idx → EReal := V m c main_v22
abbrev warr (c : Dev nD) : (⟨2, ![4096, 4096]⟩ : Shape).Idx → EReal := V m c main_v23
abbrev barr (c : Dev nD) : (⟨2, ![1, 4096]⟩ : Shape).Idx → EReal := V m c main_v24

/-- The block of X at point t, at (p, l). -/
theorem xblk_apply (c : Dev nD) (t : Fin cfg0.N) (p l : Fin 1024) :
    (iblk m c 0 t : Vec Ideal S1024x1024 .bf16) (ix2 p l)
      = at2 (xarr m c) (1024 * (t.val / 16) + p.val) (1024 * (t.val % 4) + l.val) :=
  blk0_read (xarr m c) t p l

/-- The block of Wb at point t, at (q, l). -/
theorem wblk_apply (c : Dev nD) (t : Fin cfg0.N) (q l : Fin 1024) :
    (iblk m c 1 t : Vec Ideal S1024x1024 .bf16) (ix2 q l)
      = at2 (warr m c) (1024 * (t.val / 4 % 4) + q.val) (1024 * (t.val % 4) + l.val) :=
  blk1_read (warr m c) t q l

/-- The block of the bias row at point t, at (0, q). -/
theorem bblk_apply (c : Dev nD) (t : Fin cfg0.N) (q : Fin 1024) :
    (iblk m c 2 t : Vec Ideal S1x1024 .f32) (ix2 (0 : Fin 1) q)
      = at2 (barr m c) 0 (1024 * (t.val / 4 % 4) + q.val) :=
  blk2_read (barr m c) t q

/-! ## What the host operations before the kernel leave in the three arrays -/

/-- X is x with its two leading axes merged. -/
theorem xarr_eq (c : Dev nD) : xarr m c
    = truncf (F := Ideal) .bf16 (shapeCast S8192x4096 (m ((c : Thread nD τ).loc main_arg0)) shapeCasts_S4x2048x4096_S8192x4096) bitsLt_bf16_f32 := by
  show StableHlo.after hostOps0 (fun b => m (c, b)) (Proc.devRef .tc main_v22) = _
  after_results
  rfl

/-- The bias row is the bias with a unit axis in front. -/
theorem barr_eq (c : Dev nD) : barr m c
    = shapeCast S1x4096 (m ((c : Thread nD τ).loc main_arg2)) shapeCasts_S4096_S1x4096 := by
  show StableHlo.after hostOps0 (fun b => m (c, b)) (Proc.devRef .tc main_v24) = _
  after_results
  rfl

set_option maxHeartbeats 4000000 in
/-- Wb is the matrix the host operations build. -/
theorem warr_eq (c : Dev nD) : warr m c
    = truncf (F := Ideal) .bf16 (hostW (m ((c : Thread nD τ).loc main_arg1)) (m ((c : Thread nD τ).loc main_arg3))
        (m ((c : Thread nD τ).loc main_arg4))) bitsLt_bf16_f32 := by
  show StableHlo.after hostOps0 (fun b => m (c, b)) (Proc.devRef .tc main_v23) = _
  after_results
  rfl

-- From here on the host-built matrix is passed whole; `hostW_def` is the one way to open it.
attribute [irreducible] hostW

end Cert.KernelIdeal.Blocks

end
-- ==== Proof.KernelValue.lean ====
/-
  What the kernel program computes: the layer.

  The accumulator. After grid point n = 16·i + 4·j + k the carried accumulator holds, at (p, q), zero plus the partial
  sums of the blocks 0, …, k of the contracted axis, of row 1024·i + p of X against row 1024·j + q of Wb — by induction
  on the point: a point with k = 0 restarts from zero, any other adds its block to what the point before (same i, j,
  block k − 1) left.

  The write-back. Only the points with k = 3 write the output block back; there the block holds the accumulator after
  all four blocks — the whole 4096-term sum — plus the bias entry of the column. So every written block is the
  restriction of ONE [8192, 4096] function, `dense2`; the 8 × 4 written blocks tile the array, so the array ends
  holding `dense2`.

  After the kernel the [8192, 4096] array is split back into [4, 2048, 4096]; with X, Wb and the bias row read back as
  what the host operations before the kernel made them, the result is the layer of x, the host-built weight matrix
  and the bias.
-/
import proofs.«170025_j83588653515071_1_alg».proof.Proof.KernelBlocks

noncomputable section

namespace Cert.KernelIdeal.Dense

open Idealize.ShloMosaic Idealize.ShloMosaic.TcCoe Idealize.SL.Sem Idealize.ShloMosaic.ValueIdx Idealize.ShloMosaic.StableHlo
open Idealize.ShloMosaic.Pipeline (Dat)
open Cert.KernelIdeal Cert.KernelIdeal.Gen Cert.KernelIdeal.Recurrence Cert.KernelIdeal.Blocks Cert.QLinear

variable (m : (ℓ : Loc nD τ sig) → Buf (Elt Ideal) ℓ) (ρ : Dev nD → PrngReg)

/-! ## The accumulator after every point -/

/-- The three input blocks at point t, at their literal types. -/
abbrev xblk (c : Dev nD) (t : Fin cfg0.N) : Vec Ideal S1024x1024 .bf16 := iblk m c 0 t
abbrev wblk (c : Dev nD) (t : Fin cfg0.N) : Vec Ideal S1024x1024 .bf16 := iblk m c 1 t
abbrev bblk (c : Dev nD) (t : Fin cfg0.N) : Vec Ideal S1x1024 .f32 := iblk m c 2 t

/-- The products a point adds, at (p, q): its block of the contracted axis of row 1024·i + p of X against row
    1024·j + q of Wb. -/
theorem block_sum (c : Dev nD) (t : Fin cfg0.N) (p q : Fin 1024) :
    ∑ l : Fin 1024, xblk m c t (ix2 p l) * wblk m c t (ix2 q l)
      = blockTerm (xarr m c) (warr m c) (1024 * (t.val / 16) + p.val) (1024 * (t.val / 4 % 4) + q.val) (t.val % 4) := by
  unfold blockTerm
  exact Finset.sum_congr rfl fun l _ =>
    congrArg₂ (· * ·) (xblk_apply m c t p l) (wblk_apply m c t q l)

/-- After point n the accumulator holds zero plus the blocks 0, …, n mod 4. -/
theorem acc_eq (c : Dev nD) (n : ℕ) : ∀ (h : n < cfg0.N) (p q : Fin 1024),
    (outsAt0 m c n h).2 (ix2 p q)
      = accUpTo (xarr m c) (warr m c) (1024 * (n / 16) + p.val) (1024 * (n / 4 % 4) + q.val) (n % 4) := by
  induction n using Nat.strong_induction_on with
  | _ n ih =>
    intro h p q
    by_cases h0 : n % 4 = 0
    · refine (congrFun (acc_first m c ⟨n, h⟩ h0) (ix2 p q)).trans ?_
      refine (step_apply (k0_pay1 (F := Ideal)) (xblk m c ⟨n, h⟩) (wblk m c ⟨n, h⟩) p q).trans ?_
      refine (congrArg₂ (· + ·) (zero_apply (ix2 p q)) (block_sum m c ⟨n, h⟩ p q)).trans ?_
      show 0 + blockTerm _ _ (1024 * (n / 16) + p.val) (1024 * (n / 4 % 4) + q.val) (n % 4) = _
      rw [h0]
      exact (accUpTo_zero _ _ _ _).symm
    · have hpos : 0 < n := by omega
      refine (congrFun (acc_next m c ⟨n, h⟩ h0) (ix2 p q)).trans ?_
      refine (step_apply (outsAt0 m c (n - 1) (pred_lt ⟨n, h⟩)).2 (xblk m c ⟨n, h⟩) (wblk m c ⟨n, h⟩) p q).trans ?_
      refine (congrArg₂ (· + ·) (ih (n - 1) (by omega) (pred_lt ⟨n, h⟩) p q) (block_sum m c ⟨n, h⟩ p q)).trans ?_
      show accUpTo _ _ (1024 * ((n - 1) / 16) + p.val) (1024 * ((n - 1) / 4 % 4) + q.val) ((n - 1) % 4)
        + blockTerm _ _ (1024 * (n / 16) + p.val) (1024 * (n / 4 % 4) + q.val) (n % 4) = _
      have e1 : (n - 1) / 16 = n / 16 := by omega
      have e2 : (n - 1) / 4 % 4 = n / 4 % 4 := by omega
      have e3 : n % 4 = (n - 1) % 4 + 1 := by omega
      rw [e1, e2, e3]
      exact (accUpTo_succ _ _ _ _ _).symm

/-! ## What the kernel region leaves in its [8192, 4096] result -/

/-- Row r of X against row n of Wb, plus entry n of the bias row. -/
@[irreducible] def dense2 (c : Dev nD) : (⟨2, ![8192, 4096]⟩ : Shape).Idx → EReal := fun i =>
  (∑ l : Fin 4096, xarr m c (ix2 (i 0) l) * warr m c (ix2 (i 1) l)) + barr m c (ix2 (0 : Fin 1) (i 1))

/-- The output block a point with k = 3 leaves, at a block index y: `dense2` at the array index y sits at. -/
theorem out_value (c : Dev nD) (t : Fin cfg0.N) (h3 : t.val % 4 = 3) (y : S1024x1024.Idx)
    (i : (⟨2, ![8192, 4096]⟩ : Shape).Idx) (hi0 : (i 0).val = 1024 * (t.val / 16) + (y 0).val)
    (hi1 : (i 1).val = 1024 * (t.val / 4 % 4) + (y 1).val) :
    (outsAt0 m c t.val t.isLt).1 y = dense2 m c i := by
  obtain ⟨p, q, rfl⟩ : ∃ (p q : Fin 1024), y = ix2 p q := ⟨y 0, y 1, eq_ix2 y⟩
  have hp : 1024 * (t.val / 16) + p.val = (i 0).val := hi0.symm
  have hq : 1024 * (t.val / 4 % 4) + q.val = (i 1).val := hi1.symm
  have e1 : (t.val - 1) / 16 = t.val / 16 := by omega
  have e2 : (t.val - 1) / 4 % 4 = t.val / 4 % 4 := by omega
  have e3 : (t.val - 1) % 4 = 2 := by omega
  -- the accumulator before the point, this point's block, and the bias entry
  have hacc := acc_eq m c (t.val - 1) (pred_lt t) p q
  rw [e1, e2, e3, hp, hq] at hacc
  have hblk := block_sum m c t p q
  rw [h3, hp, hq] at hblk
  have hb := bblk_apply m c t q
  rw [hq] at hb
  refine (congrFun (out_at_last m c t h3) (ix2 p q)).trans ?_
  refine (bias_apply (k0_pay2 (outsAt0 m c (t.val - 1) (pred_lt t)).2 (xblk m c t) (wblk m c t)) (bblk m c t) p q).trans ?_
  refine (congrArg₂ (· + ·) ((step_apply (outsAt0 m c (t.val - 1) (pred_lt t)).2 (xblk m c t) (wblk m c t) p q).trans
    (congrArg₂ (· + ·) hacc hblk)) hb).trans ?_
  have h4 : accUpTo (xarr m c) (warr m c) (i 0).val (i 1).val 2 + blockTerm (xarr m c) (warr m c) (i 0).val (i 1).val 3
      = ∑ l : Fin 4096, xarr m c (ix2 (i 0) l) * warr m c (ix2 (i 1) l) :=
    (accUpTo_succ (xarr m c) (warr m c) (i 0).val (i 1).val 2).symm.trans (accUpTo_three (xarr m c) (warr m c) (i 0) (i 1))
  rw [h4]
  unfold dense2
  exact congrArg (_ + ·) (at2_ix2 (barr m c) (0 : Fin 1) (i 1))

/-- What a writing point writes back is its block of `dense2`. -/
theorem flushed_eq (c : Dev nD) (t : Fin cfg0.N) (hf : (cfg0.win 3).flush t = true) :
    (dats m 0 c).flushed 3 t = ((cfg0.win 3).blk t).view.read (Elt Ideal) (dense2 m c) := by
  have h3 : t.val % 4 = 3 := (flush0_3 t).mp hf
  show (cfg0.win 3).cut (grid0.coords t) ((dats m 0 c).after 3 t) = _
  rw [after0_3]
  funext y
  obtain ⟨i, hr, hi0, hi1⟩ := blk3_read (dense2 m c) t y
  refine Eq.trans ?_ hr.symm
  exact out_value m c t h3 y i hi0 hi1

/-- An index of the array is in point t's block iff each coordinate is in the block's range on its axis. -/
theorem mem_blk (t : Fin cfg0.N) (i : S8192x4096.Idx) :
    i ∈ ((cfg0.win 3).blk t).view.set
      ↔ ∀ a : Fin 2, win0_3.index t a * S1024x1024.size a ≤ (i a).val
          ∧ (i a).val < win0_3.index t a * S1024x1024.size a + S1024x1024.size a := by
  show i ∈ ((View.whole main_v25).slice (win0_3.rect t)).set ↔ _
  rw [View.set_slice_whole, Rect.mem_set_unit]
  exact Iff.rfl

/-- Every index of the array lies in the block of a writing point: row block i₀ / 1024, column block i₁ / 1024, k = 3. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  have hlt : 16 * ((i 0).val / 1024) + 4 * ((i 1).val / 1024) + 3 < cfg0.N := by rw [hN]; omega
  refine ⟨⟨16 * ((i 0).val / 1024) + 4 * ((i 1).val / 1024) + 3, hlt⟩, (flush0_3 _).mpr (by dsimp only; omega), ?_⟩
  obtain ⟨-, -, -, -, -, -, e0, e1⟩ := idx_facts ⟨16 * ((i 0).val / 1024) + 4 * ((i 1).val / 1024) + 3, hlt⟩
  rw [mem_blk]
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 1024 ≤ (i 1).val ∧ (i 1).val < win0_3.index _ (1 : Fin 2) * 1024 + 1024
    rw [e1]; dsimp only; omega

/-- So the region's result array ends holding `dense2`. -/
theorem final (c : Dev nD) : (dats m 0 c).arrAt 3 cfg0.N = dense2 m c :=
  (dats m 0 c).arrAt_eq_of_cover 3 (dense2 m c) (flushed_eq m c) cover

/-! ## The reshape after the kernel, and the result as the layer -/

/-- The program's result array: the region's result with its rows split back into [4, 2048]. -/
theorem tail_eq (c : Dev nD) :
    Pipeline.afterTail₀ cfgs (dats m) 0 (V0 m) [hostOps1] c main_v26
      = shapeCast S4x2048x4096 (dense2 m c) shapeCasts_S8192x4096_S4x2048x4096 := by
  unfold Pipeline.afterTail₀
  show StableHlo.after hostOps1 _ (Proc.devRef .tc main_v26) = _
  after_results
  have e : Pipeline.withArrays (cfgs 0).spec c (V0 m c) (fun w => (dats m 0 c).arrAt w (cfgs 0).N) (Proc.devRef .tc main_v25)
      = dense2 m c :=
    (Pipeline.withArrays_arr spec0 launch0.win.arr_inj c _ _ 3).trans (final m c)
  rw [e]
  rfl

/-- Read at (b, s, o), that array is the layer of x, the host-built weight matrix and the bias. -/
theorem result_eq_layer (c : Dev nD) :
    shapeCast S4x2048x4096 (dense2 m c) shapeCasts_S8192x4096_S4x2048x4096
      = layer (m ((c : Thread nD τ).loc main_arg0))
          (hostW (m ((c : Thread nD τ).loc main_arg1)) (m ((c : Thread nD τ).loc main_arg3)) (m ((c : Thread nD τ).loc main_arg4)))
          (m ((c : Thread nD τ).loc main_arg2)) := by
  funext i
  have h0 : (i 0).val < 4 := (i 0).isLt
  have h1 : (i 1).val < 2048 := (i 1).isLt
  have hr : 2048 * (i 0).val + (i 1).val < 8192 := by omega
  refine (shapeCast_apply (dense2 m c) shapeCasts_S8192x4096_S4x2048x4096 i (ix2 ⟨2048 * (i 0).val + (i 1).val, hr⟩ (i 2)) ?_).trans ?_
  · rw [Shape.rowMajor_val_two, Shape.rowMajor_val_three]
    show (2048 * (i 0).val + (i 1).val) * 4096 + (i 2).val = ((i 0).val * 2048 + (i 1).val) * 4096 + (i 2).val
    omega
  · unfold dense2 layer
    rw [xarr_eq, warr_eq, barr_eq]
    refine congrArg₂ (· + ·) (Finset.sum_congr rfl fun l _ => ?_) ?_
    · refine congrArg₂ (· * ·) ?_ (truncf_apply (ψ := .bf16) _ bitsLt_bf16_f32 _)
      refine (truncf_apply (ψ := .bf16) _ bitsLt_bf16_f32 _).trans ?_
      refine shapeCast_apply _ shapeCasts_S4x2048x4096_S8192x4096 _ (ix3 (i 0) (i 1) l) ?_
      rw [Shape.rowMajor_val_two, Shape.rowMajor_val_three]
      show ((i 0).val * 2048 + (i 1).val) * 4096 + l.val = (2048 * (i 0).val + (i 1).val) * 4096 + l.val
      omega
    · exact shapeCast_a_1a_apply _ shapeCasts_S4096_S1x4096 (0 : Fin 1) (i 2)

/-! ## The run, read -/

/-- Every weakly fair execution of the program terminates with its result array at the layer and its arguments
    unchanged. -/
theorem run : θ_run defs (onTc (τ := τ) (main (F := Ideal))) ⟨m, fun _ => 0, ρ⟩ fun r => ∀ c : Dev nD,
      r.2.mem ((c.tc : Thread nD τ).loc main_v26)
        = layer (m ((c : Thread nD τ).loc main_arg0))
            (hostW (m ((c : Thread nD τ).loc main_arg1)) (m ((c : Thread nD τ).loc main_arg3)) (m ((c : Thread nD τ).loc main_arg4)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(((h c).2 main_v26 (Pipeline.mem_restRefs_of main_v26 (by decide) (by decide))).trans (tail_eq m c)).trans (result_eq_layer m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Dense

end
-- ==== Proof.RefValue.lean ====
/-
  The reference computes the layer.

  Its last three operations are a product contracting the last axis of x with the second axis of the weight matrix,
  the bias laid along the last axis and repeated over the two leading axes, and their sum. Read at an index (b, s, o)
  at the ideal values that is Σ_i x(b, s, i)·W(o, i) + bias(o), where W is whatever the operations before them built
  out of the weight, the outlier weights and the outlier column indices: W is left as it is.
-/
import proofs.«170025_j83588653515071_1_alg».proof.Proof.Gen.ReferenceIdeal.Read
import proofs.«170025_j83588653515071_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.QLinear

/-- The reference's result array is the layer of x, of the weight matrix its prefix builds, and of the bias. -/
theorem result_eq (x0 : (⟨S4x2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x204, .f32⟩ : BufTy).Contents (Elt Ideal))
    (x4 : (⟨S204, .i32⟩ : BufTy).Contents (Elt Ideal)) :
    val_main_v24 (F := Ideal) x0 x1 x2 x3 x4 = layer x0 (val_main_v20 (F := Ideal) x1 x3 x4) x2 := by
  funext i
  rw [val_main_v24_apply, val_main_v21_apply, val_main_v23_apply, val_main_v22_apply]
  unfold layer
  have el : ∀ k : Fin 4096, lidx_main_v21 i k = ix3 (i 0) (i 1) k := fun k =>
    funext fun a => Fin.ext (by match a with | ⟨0, _⟩ => rfl | ⟨1, _⟩ => rfl | ⟨2, _⟩ => rfl)
  have er : ∀ k : Fin 4096, ridx_main_v21 i k = ix2 (i 2) k := fun k =>
    funext fun a => Fin.ext (by match a with | ⟨0, _⟩ => rfl | ⟨1, _⟩ => rfl)
  have eb : idx_main_v22 (idx_main_v23 i) = ix1 (i 2) :=
    funext fun a => Fin.ext (by match a with | ⟨0, _⟩ => rfl)
  simp only [el, er, eb]
  rfl

end Cert.ReferenceIdeal.RefValue

end
-- ==== Proof.lean ====
/-
  Equivalence over the extended reals of a quantized linear layer computed by a tiled kernel and by one product.

  Both programs first build the same weight matrix W on the host: each row of the weight is centred at its mean, the
  signs of the centred entries are scaled by the row's mean absolute value, and 204 outlier columns are put in place
  of the columns the (wrapped) indices name. The operations and their constants are the same in both programs, so W
  is the same function of the weight, the outlier weights and the indices, and it is never opened here.

  The reference then forms out(b, s, o) = Σ_{i < 4096} x(b, s, i)·W(o, i) + bias(o) by one product and one addition.

  The kernel merges x's two leading axes into the [8192, 4096] matrix X, and walks an 8 × 4 × 4 grid: at point (i, j, k)
  it adds to a carried [1024, 1024] accumulator the product of block (i, k) of X with the transpose of block (j, k) of
  W, having zeroed the accumulator at k = 0, and at k = 3 it writes the accumulator plus the bias entries of the columns
  to block (i, j) of the result, which is finally split back into [4, 2048, 4096]. At the ideal values a change of float
  format is the identity, so entry (1024·i + p, 1024·j + q) of the result is

      ((((0 + S₀) + S₁) + S₂) + S₃) + bias(1024·j + q),    S_k = Σ_{l < 1024} X(1024·i + p, 1024·k + l)·W(1024·j + q, 1024·k + l),

  and since addition of extended reals is associative with 0 as neutral element this is the reference's 4096-term sum
  plus the bias entry. The precondition (finite inputs) is not needed.

  The three frames are the generated frame certificates (the reference's is its generated run with the result
  dropped); the idealization rewrote nothing, so its conjunct is trivial.
-/
import proofs.«170025_j83588653515071_1_alg».proof.Defs
import proofs.«170025_j83588653515071_1_alg».proof.Proof.Gen.Kernel
import proofs.«170025_j83588653515071_1_alg».proof.Proof.Gen.Kernel.Skeleton
import proofs.«170025_j83588653515071_1_alg».proof.Proof.Gen.Kernel.Launch
import proofs.«170025_j83588653515071_1_alg».proof.Proof.Gen.Kernel.Points
import proofs.«170025_j83588653515071_1_alg».proof.Proof.Gen.Kernel.Frame
import proofs.«170025_j83588653515071_1_alg».proof.Proof.Gen.KernelIdeal
import proofs.«170025_j83588653515071_1_alg».proof.Proof.Gen.KernelIdeal.Skeleton
import proofs.«170025_j83588653515071_1_alg».proof.Proof.Gen.KernelIdeal.Launch
import proofs.«170025_j83588653515071_1_alg».proof.Proof.Gen.KernelIdeal.Points
import proofs.«170025_j83588653515071_1_alg».proof.Proof.Gen.KernelIdeal.Frame
import proofs.«170025_j83588653515071_1_alg».proof.Proof.Gen.ReferenceIdeal
import proofs.«170025_j83588653515071_1_alg».proof.Proof.Gen.Pre_finite_inputs
import proofs.«170025_j83588653515071_1_alg».proof.Proof.Gen.ReferenceIdeal.Run
import proofs.«170025_j83588653515071_1_alg».proof.Proof.Gen.ReferenceIdeal.Read
import proofs.«170025_j83588653515071_1_alg».proof.Proof.KernelValue
import proofs.«170025_j83588653515071_1_alg».proof.Proof.RefValue
import Idealize.ShloMosaic.Adequacy
import Idealize.ShloMosaic.Init

noncomputable section

namespace Cert.Proof

open Idealize.ShloMosaic Idealize.SL.Sem Cert.QLinear

/-- Both programs build the weight matrix by the same operations with the same constants. -/
theorem weights_eq (x1 : (⟨Cert.ReferenceIdeal.S4096x4096, .f32⟩ : BufTy).Contents (Elt Ideal))
    (x3 : (⟨Cert.ReferenceIdeal.S4096x204, .f32⟩ : BufTy).Contents (Elt Ideal))
    (x4 : (⟨Cert.ReferenceIdeal.S204, .i32⟩ : BufTy).Contents (Elt Ideal)) :
    Cert.KernelIdeal.Blocks.hostW (F := Ideal) x1 x3 x4 = Cert.ReferenceIdeal.Read.val_main_v20 (F := Ideal) x1 x3 x4 := by
  rw [Cert.KernelIdeal.Blocks.hostW_def]
  simp only [Cert.ReferenceIdeal.Read.val_main_cst,
    Cert.ReferenceIdeal.Read.val_main_v0,
    Cert.ReferenceIdeal.Read.val_main_v1,
    Cert.ReferenceIdeal.Read.val_main_cst_0,
    Cert.ReferenceIdeal.Read.val_main_v2,
    Cert.ReferenceIdeal.Read.val_main_v3,
    Cert.ReferenceIdeal.Read.val_main_v4,
    Cert.ReferenceIdeal.Read.val_main_v5,
    Cert.ReferenceIdeal.Read.val_main_v6,
    Cert.ReferenceIdeal.Read.val_main_cst_1,
    Cert.ReferenceIdeal.Read.val_main_v7,
    Cert.ReferenceIdeal.Read.val_main_v8,
    Cert.ReferenceIdeal.Read.val_main_cst_2,
    Cert.ReferenceIdeal.Read.val_main_v9,
    Cert.ReferenceIdeal.Read.val_main_v10,
    Cert.ReferenceIdeal.Read.val_main_v11,
    Cert.ReferenceIdeal.Read.val_main_v12,
    Cert.ReferenceIdeal.Read.val_main_v13,
    Cert.ReferenceIdeal.Read.val_main_c,
    Cert.ReferenceIdeal.Read.val_main_v14,
    Cert.ReferenceIdeal.Read.val_main_v15,
    Cert.ReferenceIdeal.Read.val_main_c_3,
    Cert.ReferenceIdeal.Read.val_main_v16,
    Cert.ReferenceIdeal.Read.val_main_v17,
    Cert.ReferenceIdeal.Read.val_main_v18,
    Cert.ReferenceIdeal.Read.val_main_v19,
    Cert.ReferenceIdeal.Read.val_main_v20]
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with their result arrays at the layer of x, of the one weight matrix and of the bias. -/
theorem algebraic : Cert.algebraic_KernelIdeal_ReferenceIdeal := by
  intro m ρ m' ρ' _ hagree
  refine ⟨fun c => layer (m ((c.tc : Thread Cert.KernelIdeal.nD Cert.KernelIdeal.τ).loc Cert.KernelIdeal.main_arg0))
      (Cert.KernelIdeal.Blocks.hostW (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (m ((c.tc : Thread Cert.KernelIdeal.nD Cert.KernelIdeal.τ).loc Cert.KernelIdeal.main_arg2)), Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  dsimp only
  rw [Cert.ReferenceIdeal.Read.val_main_v24_eq, Cert.ReferenceIdeal.RefValue.result_eq, (hagree c).1, (hagree c).2.1,
    (hagree c).2.2.1, (hagree c).2.2.2.1, (hagree c).2.2.2.2, weights_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
